-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S5000x128 : Shape := ⟨2, ![5000, 128]⟩
abbrev S1x128 : Shape := ⟨2, ![1, 128]⟩

abbrev nBuf : Space → Nat
  | .hbm => 21
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 35
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S_, .f32⟩
  | .hbm, ⟨21, _⟩ => ⟨S100000x128, .f32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  One node's row through the layer, over the extended reals.

  A node has a row `x` of 128 features and a row `a` of 128 aggregated neighbour features. The layer first adds them,
  `h c = 1 · x c + a c` (the factor is the word both programs spell for `1 + eps` with `eps = 0`), then applies two affine
  maps with a rectifier between them:

    hidden k = max (∑ c, h c · W1[c, k] + B1[k]) 0
    result q = ∑ k, hidden k · W2[k, q] + B2[q].

  `rowOut` is `result`; `out` applies it to every row of a [100000, 128] array. The two float words are kept as words:
  both programs spell the same ones, so nothing here evaluates them.
-/
import Idealize.ShloMosaic.PureOps.Ideal
import Idealize.ShloMosaic.Lib.ValueIdx

noncomputable section

open scoped BigOperators

namespace Cert.GinSpec

open Idealize.ShloMosaic Idealize.ShloMosaic.ValueIdx

/-- The word of the residual factor `1 + eps`, `eps = 0`. -/
abbrev one : EReal := Ideal.ofBits .f32 0x3F800000#32
/-- The word the rectifier compares with. -/
abbrev zero : EReal := Ideal.ofBits .f32 0x00000000#32

/-- The hidden unit `k` of a node with feature row `x` and neighbour row `a`. -/
def hidden (x a : Fin 128 → EReal) (W1 : (⟨2, ![128, 128]⟩ : Shape).Idx → EReal) (B1 : (⟨1, ![128]⟩ : Shape).Idx → EReal)
    (k : Fin 128) : EReal :=
  max ((∑ c : Fin 128, (one * x c + a c) * W1 (ix2 c k)) + B1 (ix1 k)) zero

/-- The node's result at column `q`. -/
def rowOut (x a : Fin 128 → EReal) (W1 : (⟨2, ![128, 128]⟩ : Shape).Idx → EReal) (B1 : (⟨1, ![128]⟩ : Shape).Idx → EReal)
    (W2 : (⟨2, ![128, 128]⟩ : Shape).Idx → EReal) (B2 : (⟨1, ![128]⟩ : Shape).Idx → EReal) (q : Fin 128) : EReal :=
  (∑ k : Fin 128, hidden x a W1 B1 k * W2 (ix2 k q)) + B2 (ix1 q)

/-- Every node's result: row `n` of the output is `rowOut` of row `n` of the features and row `n` of the aggregate. -/
def out (X agg : (⟨2, ![100000, 128]⟩ : Shape).Idx → EReal) (W1 : (⟨2, ![128, 128]⟩ : Shape).Idx → EReal)
    (B1 : (⟨1, ![128]⟩ : Shape).Idx → EReal) (W2 : (⟨2, ![128, 128]⟩ : Shape).Idx → EReal) (B2 : (⟨1, ![128]⟩ : Shape).Idx → EReal) :
    (⟨2, ![100000, 128]⟩ : Shape).Idx → EReal := fun i =>
  rowOut (fun c => X (ix2 (i 0) c)) (fun c => agg (ix2 (i 0) c)) W1 B1 W2 B2 (i 1)

/-- The result of a node depends on its two rows only through their entries. -/
theorem rowOut_congr {x x' a a' : Fin 128 → EReal} (hx : ∀ c, x c = x' c) (ha : ∀ c, a c = a' c)
    (W1 : (⟨2, ![128, 128]⟩ : Shape).Idx → EReal) (B1 : (⟨1, ![128]⟩ : Shape).Idx → EReal)
    (W2 : (⟨2, ![128, 128]⟩ : Shape).Idx → EReal) (B2 : (⟨1, ![128]⟩ : Shape).Idx → EReal) {q q' : Fin 128} (hq : q = q') :
    rowOut x a W1 B1 W2 B2 q = rowOut x' a' W1 B1 W2 B2 q' := by
  rw [show x = x' from funext hx, show a = a' from funext ha, hq]

end Cert.GinSpec

end
-- ==== Proof.RefSpec.lean ====
/-
  The reference computes `GinSpec.out`.

  Read one operation at a time, the reference's result at `(n, q)` is `∑ k, relu(...)(n, k) · W2[k, q] + b2[q]`, with
  `relu(...)(n, k) = max (∑ c, (1 · X[n, c] + agg[n, c]) · W1[c, k] + b1[k]) 0` — which is `rowOut` of row `n` of `X` and
  of the aggregate. The aggregate (the gather of rows by the first edge list, scatter-added by the second) is kept
  as one unopened term.
-/
import proofs.«179949_j69123203662130_1_alg».proof.Proof.Gen.ReferenceIdeal.Read
import proofs.«179949_j69123203662130_1_alg».proof.Proof.Spec

noncomputable section

open scoped BigOperators

namespace Cert.ReferenceIdeal.RefSpec

open Cert.ReferenceIdeal Cert.ReferenceIdeal.Gen Cert.ReferenceIdeal.Read Idealize.ShloMosaic Idealize.ShloMosaic.ValueIdx

/-! ### The read lemmas' index functions, as coordinates -/

theorem lidx13 (n : Fin 100000) (q k : Fin 128) : lidx_main_v13 (ix2 n q) k = ix2 n k :=
  funext fun a => Fin.ext (by match a with | ⟨0, _⟩ => rfl | ⟨1, _⟩ => rfl)
theorem ridx13 (n : Fin 100000) (q k : Fin 128) : ridx_main_v13 (ix2 n q) k = ix2 k q :=
  funext fun a => Fin.ext (by match a with | ⟨0, _⟩ => rfl | ⟨1, _⟩ => rfl)
theorem lidx18 (n : Fin 100000) (q k : Fin 128) : lidx_main_v18 (ix2 n q) k = ix2 n k :=
  funext fun a => Fin.ext (by match a with | ⟨0, _⟩ => rfl | ⟨1, _⟩ => rfl)
theorem ridx18 (n : Fin 100000) (q k : Fin 128) : ridx_main_v18 (ix2 n q) k = ix2 k q :=
  funext fun a => Fin.ext (by match a with | ⟨0, _⟩ => rfl | ⟨1, _⟩ => rfl)
theorem bias15 (n : Fin 100000) (q : Fin 128) : idx_main_v14 (idx_main_v15 (ix2 n q)) = ix1 q :=
  funext fun a => Fin.ext (by match a with | ⟨0, _⟩ => rfl)
theorem bias20 (n : Fin 100000) (q : Fin 128) : idx_main_v19 (idx_main_v20 (ix2 n q)) = ix1 q :=
  funext fun a => Fin.ext (by match a with | ⟨0, _⟩ => rfl)

/-- The rectified hidden layer of the reference at `(n, k)` is `hidden k` of node `n`'s two rows. -/
theorem hidden_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x5 x6 : (⟨S1600000, .i32⟩ : BufTy).Contents (Elt Ideal)) (n : Fin 100000) (k : Fin 128) :
    val_main_v17 (F := Ideal) x0 x1 x2 x5 x6 (ix2 n k)
      = GinSpec.hidden (fun c => x0 (ix2 n c)) (fun c => val_main_v9 (F := Ideal) x0 x5 x6 (ix2 n c)) x1 x2 k := by
  rw [val_main_v17_apply, val_main_v16_apply, val_main_v13_apply, val_main_v15_apply, val_main_v14_apply, bias15,
    val_main_call0_v0_apply, val_main_call0_cst_apply]
  unfold GinSpec.hidden
  show max ((∑ c : Fin 128, _) + _) _ = max ((∑ c : Fin 128, _) + _) _
  congr 2
  refine Finset.sum_congr rfl fun c _ => ?_
  rw [lidx13, ridx13, val_main_v12_apply, val_main_v11_apply, val_main_v10_apply, val_main_cst_1_apply]
  rfl

/-- THE REFERENCE'S RESULT is `GinSpec.out` of the features, the aggregate, the two weight matrices and the two biases. -/
theorem result_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x5 x6 : (⟨S1600000, .i32⟩ : BufTy).Contents (Elt Ideal)) :
    val_main_v21 (F := Ideal) x0 x1 x2 x3 x4 x5 x6 = GinSpec.out x0 (val_main_v9 (F := Ideal) x0 x5 x6) x1 x2 x3 x4 := by
  funext i
  obtain ⟨n, q, rfl⟩ : ∃ (n : Fin 100000) (q : Fin 128), i = ix2 n q := ⟨i 0, i 1, eq_ix2 i⟩
  rw [val_main_v21_apply, val_main_v18_apply, val_main_v20_apply, val_main_v19_apply, bias20]
  show (∑ k : Fin 128, _) + _ = GinSpec.rowOut (fun c => x0 (ix2 n c)) (fun c => val_main_v9 (F := Ideal) x0 x5 x6 (ix2 n c)) x1 x2 x3 x4 q
  unfold GinSpec.rowOut
  congr 1
  refine Finset.sum_congr rfl fun k _ => ?_
  rw [lidx18, ridx18, hidden_eq]

end Cert.ReferenceIdeal.RefSpec

end
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.PayRow.lean ====
/-
  The kernel body's stored value, at an index, is `GinSpec.rowOut`.

  The body stores `(max((1 · x + a) · w1 + b1, 0)) · w2 + b2` for its 5000-row blocks `x`, `a` and the whole weights and
  biases. Read at `(p, q)`: the outer product into the zero accumulator is a sum over the hidden axis, each of its left
  factors the rectified inner sum plus the first bias, and both biases enter as one row broadcast over the 5000 rows.
  The changes of float format are the identity on the extended reals. So the entry is `rowOut` of row `p` of `x` and `a`.
-/
import proofs.«179949_j69123203662130_1_alg».proof.Proof.Gen.KernelIdeal.Skeleton
import proofs.«179949_j69123203662130_1_alg».proof.Proof.Spec
import proofs.«179949_j69123203662130_1_alg».proof.Proof.LibMatmulAt
import Idealize.ShloMosaic.Lib.Pipeline.Value
import Idealize.ShloMosaic.Lib.ValueLayout
import Idealize.ShloMosaic.PureOps.Ideal.Laws

noncomputable section

open scoped BigOperators

namespace Cert.KernelIdeal.PayRow

open Cert.KernelIdeal Cert.KernelIdeal.Gen Idealize.ShloMosaic Idealize.ShloMosaic.TcCoe Idealize.ShloMosaic.ValueIdx

/-- A bias of 128 entries, given a unit leading axis and broadcast over 5000 rows, read at `(p, q)`, is its entry `q`. -/
theorem bias_at (b : Vec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

/-- The rectified hidden layer of the body at `(p, k)`. -/
theorem hidden_at (x a : Vec Ideal S5000x128 .f32) (w1 : Vec Ideal S128x128 .f32) (b1 : Vec Ideal S128 .f32) (p : Fin 5000) (k : Fin 128) :
    (truncf .bf16 (maximumf (addf (matmul dot_S5000x128_S128x128_S5000x128_1_0_0_1_n_n none
        (truncf .bf16 (addf (mulf (broadcast S5000x128 (Scalar.ofBits (F := Ideal) .f32 0x3F800000#32)) x) (shapeCast S5000x128 a shapeCasts_S5000x128_S5000x128)) bitsLt_bf16_f32)
        (truncf .bf16 w1 bitsLt_bf16_f32) (constant S5000x128 .f32 0x00000000#32))
        (broadcastTo S5000x128 (shapeCast S1x128 b1 shapeCasts_S128_S1x128) broadcasts_S1x128_S5000x128))
      (broadcast S5000x128 (Scalar.ofBits (F := Ideal) .f32 0x00000000#32))) bitsLt_bf16_f32 : FVec Ideal S5000x128 .bf16) (ix2 p k)
      = GinSpec.hidden (fun c => x (ix2 p c)) (fun c => a (ix2 p c)) w1 b1 k := by
  show max (FloatOps.matmul _ none _ _ (constant S5000x128 .f32 0x00000000#32) (ix2 p k) + broadcastTo S5000x128 _ _ (ix2 p k)) _ = _
  rw [Cert.LibMatmulAt.matmul_zero_at _ rfl rfl rfl rfl rfl rfl, bias_at, shapeCast_self]
  rfl

/-- THE BODY'S STORED VALUE at `j` is `rowOut` of row `j 0` of its two row blocks, at column `j 1`. -/
theorem pay_row (x a : Vec Ideal S5000x128 .f32) (w1 : Vec Ideal S128x128 .f32) (b1 : Vec Ideal S128 .f32)
    (w2 : Vec Ideal S128x128 .f32) (b2 : Vec Ideal S128 .f32) (p : Fin 5000) (q : Fin 128) :
    k0_pay1 (F := Ideal) x a w1 b1 w2 b2 (ix2 p q)
      = GinSpec.rowOut (fun c => x (ix2 p c)) (fun c => a (ix2 p c)) w1 b1 w2 b2 q := by
  unfold k0_pay1
  show FloatOps.matmul _ none _ _ (constant S5000x128 .f32 0x00000000#32) (ix2 p q) + broadcastTo S5000x128 _ _ (ix2 p q) = _
  rw [Cert.LibMatmulAt.matmul_zero_at _ rfl rfl rfl rfl rfl rfl, bias_at]
  unfold GinSpec.rowOut
  congr 1
  refine Finset.sum_congr rfl fun k _ => ?_
  rw [hidden_at]
  rfl

end Cert.KernelIdeal.PayRow

end
-- ==== Proof.Agg.lean ====
/-
  The aggregate the region finds.

  Before the region, @main normalises the first edge list (a negative entry has 100000 added), gathers the feature
  rows it names, and scatter-adds them, by the second edge list, onto a zero [100000, 128] array. `agg` is that composed
  term; the array the region stages for its second window holds it, and the reference's own aggregate is the same
  term, operation for operation. Nothing here opens the gather or the scatter.
-/
import proofs.«179949_j69123203662130_1_alg».proof.Proof.Gen.KernelIdeal.Frame
import proofs.«179949_j69123203662130_1_alg».proof.Proof.Gen.ReferenceIdeal.Read
import Idealize.ShloMosaic.Lib.StableHlo.Run

noncomputable section

namespace Cert.KernelIdeal.Agg

open Cert.KernelIdeal Cert.KernelIdeal.Gen Idealize.ShloMosaic Idealize.ShloMosaic.TcCoe Idealize.SL.Sem Idealize.ShloMosaic.StableHlo

variable {F : FTy → Type} [FloatOps F]

/-- The aggregate as a function of the features and the two edge lists. -/
def agg (x0 : (⟨S100000x128, .f32⟩ : BufTy).Contents (Elt F)) (x5 x6 : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 x6)
    (Host.gather gather_S100000x128_S1600000x1_S1600000x128_1_0_n_n_0_1_1128 x0
      (broadcastInDim S1600000x1 ![0] bcast_S1600000_S1600000x1_0
        (select (cmpi .slt x5 (broadcastInDim S1600000 ![] bcast_S_S1600000 (constantI S_ 32 0#32)))
          (addi x5 (broadcastInDim S1600000 ![] bcast_S_S1600000 (constantI S_ 32 100000#32))) x5)))

variable (m : (ℓ : Loc nD τ sig) → Buf (Elt F) ℓ)

/-- The array the second window stages holds the aggregate of the launch contents. -/
theorem V_agg (c : Dev nD) :
    (V m c main_v9 : (⟨S100000x128, .f32⟩ : BufTy).Contents (Elt F))
      = agg (m ((c : Thread nD τ).loc main_arg0)) (m ((c : Thread nD τ).loc main_arg5)) (m ((c : Thread nD τ).loc main_arg6)) := by
  dsimp only [V, hostOps0]
  after_results
  rfl

/-- The reference's aggregate is the same term. -/
theorem agg_eq_ref (x0 : (⟨S100000x128, .f32⟩ : BufTy).Contents (Elt F)) (x5 x6 : (⟨S1600000, .i32⟩ : BufTy).Contents (Elt F)) :
    agg x0 x5 x6 = Cert.ReferenceIdeal.Read.val_main_v9 (F := F) x0 x5 x6 := rfl

end Cert.KernelIdeal.Agg

end
-- ==== Proof.Whole.lean ====
/-
  From the kernel's blocks to its whole result array.

  The grid has 20 points; point `t` stages rows `5000 t … 5000 t + 4999` of the features and of the aggregate, the whole of
  both weight matrices and both biases, and writes back rows `5000 t … 5000 t + 4999` of the result. What it writes at
  `(p, q)` is `rowOut` of row `p` of its two row blocks (the payload read at an index), which are rows `5000 t + p` of the
  two arrays: so it writes block `t` of `GinSpec.out` of the arrays. The 20 blocks cover the 100000 rows (row `r` lies in
  block `r / 5000`), so the array ends holding `GinSpec.out` everywhere.
-/
import proofs.«179949_j69123203662130_1_alg».proof.Proof.Gen.KernelIdeal.Value
import proofs.«179949_j69123203662130_1_alg».proof.Proof.PayRow
import proofs.«179949_j69123203662130_1_alg».proof.Proof.Agg
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a; rfl

/-! ### The arrays as the region finds them, over their literal types -/

abbrev Xarr (c : Dev nD) : Vec Ideal S100000x128 .f32 := V m c main_arg0
abbrev Aarr (c : Dev nD) : Vec Ideal S100000x128 .f32 := V m c main_v9
abbrev W1arr (c : Dev nD) : Vec Ideal S128x128 .f32 := V m c main_arg1
abbrev B1arr (c : Dev nD) : Vec Ideal S128 .f32 := V m c main_arg2
abbrev W2arr (c : Dev nD) : Vec Ideal S128x128 .f32 := V m c main_arg3
abbrev B2arr (c : Dev nD) : Vec Ideal S128 .f32 := V m c main_arg4

/-- The result array: every node's row through the layer. -/
abbrev result (c : Dev nD) : Buf (Elt Ideal) ((c : Thread nD τ).loc main_v10) :=
  GinSpec.out (Xarr m c) (Aarr m c) (W1arr m c) (B1arr m c) (W2arr m c) (B2arr m c)

/-- The printed index maps over the 20 points: the two row windows and the output move together down the rows, one
    block per point; the weights and biases stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-! ### Each window's block as entries of its array

Stated for ANY contents of the window's array, so that nothing here looks inside the arrays the region finds. -/

/-- Row `p` of the feature window's block at point `t` is row `5000 t + p` of its array. -/
theorem rows0 (t : Fin cfg0.N) (A : Vec Ideal S100000x128 .f32) (p : Fin 5000) (cc : Fin 128) (n : Fin 100000)
    (hn : n.val = t.val * 5000 + p.val) :
    (((cfg0.win 0).blk t).view.read (Elt Ideal) A : Vec Ideal S5000x128 .f32) (ix2 p cc) = A (ix2 n cc) := by
  obtain ⟨e00, e01, -⟩ := idx_facts t
  rw [View.read_apply]
  refine congrArg A (funext fun a => Fin.ext ?_)
  match a with
  | ⟨0, _⟩ => show win0_0.index t (0 : Fin 2) * 5000 + 1 * p.val = n.val; rw [e00, hn]; omega
  | ⟨1, _⟩ => show win0_0.index t (1 : Fin 2) * 128 + 1 * cc.val = cc.val; rw [e01]; omega

/-- Row `p` of the aggregate window's block at point `t` is row `5000 t + p` of its array. -/
theorem rows1 (t : Fin cfg0.N) (A : Vec Ideal S100000x128 .f32) (p : Fin 5000) (cc : Fin 128) (n : Fin 100000)
    (hn : n.val = t.val * 5000 + p.val) :
    (((cfg0.win 1).blk t).view.read (Elt Ideal) A : Vec Ideal S5000x128 .f32) (ix2 p cc) = A (ix2 n cc) := by
  obtain ⟨-, -, e10, e11, -⟩ := idx_facts t
  rw [View.read_apply]
  refine congrArg A (funext fun a => Fin.ext ?_)
  match a with
  | ⟨0, _⟩ => show win0_1.index t (0 : Fin 2) * 5000 + 1 * p.val = n.val; rw [e10, hn]; omega
  | ⟨1, _⟩ => show win0_1.index t (1 : Fin 2) * 128 + 1 * cc.val = cc.val; rw [e11]; omega

/-- The first weight matrix's window is its whole array. -/
theorem whole2 (t : Fin cfg0.N) (A : Vec Ideal S128x128 .f32) :
    (((cfg0.win 2).blk t).view.read (Elt Ideal) A : Vec Ideal S128x128 .f32) = A := by
  obtain ⟨-, -, -, -, e20, e21, -⟩ := idx_facts t
  funext y
  rw [View.read_apply]
  refine congrArg A (funext fun a => Fin.ext ?_)
  match a with
  | ⟨0, _⟩ => show win0_2.index t (0 : Fin 2) * 128 + 1 * (y 0).val = (y 0).val; rw [e20]; omega
  | ⟨1, _⟩ => show win0_2.index t (1 : Fin 2) * 128 + 1 * (y 1).val = (y 1).val; rw [e21]; omega

/-- The first bias's window is its whole array. -/
theorem whole3 (t : Fin cfg0.N) (A : Vec Ideal S128 .f32) :
    (((cfg0.win 3).blk t).view.read (Elt Ideal) A : Vec Ideal S128 .f32) = A := by
  obtain ⟨-, -, -, -, -, -, e30, -⟩ := idx_facts t
  funext y
  rw [View.read_apply]
  refine congrArg A (funext fun a => Fin.ext ?_)
  match a with
  | ⟨0, _⟩ => show win0_3.index t (0 : Fin 1) * 128 + 1 * (y 0).val = (y 0).val; rw [e30]; omega

/-- The second weight matrix's window is its whole array. -/
theorem whole4 (t : Fin cfg0.N) (A : Vec Ideal S128x128 .f32) :
    (((cfg0.win 4).blk t).view.read (Elt Ideal) A : Vec Ideal S128x128 .f32) = A := by
  obtain ⟨-, -, -, -, -, -, -, e40, e41, -⟩ := idx_facts t
  funext y
  rw [View.read_apply]
  refine congrArg A (funext fun a => Fin.ext ?_)
  match a with
  | ⟨0, _⟩ => show win0_4.index t (0 : Fin 2) * 128 + 1 * (y 0).val = (y 0).val; rw [e40]; omega
  | ⟨1, _⟩ => show win0_4.index t (1 : Fin 2) * 128 + 1 * (y 1).val = (y 1).val; rw [e41]; omega

/-- The second bias's window is its whole array. -/
theorem whole5 (t : Fin cfg0.N) (A : Vec Ideal S128 .f32) :
    (((cfg0.win 5).blk t).view.read (Elt Ideal) A : Vec Ideal S128 .f32) = A := by
  obtain ⟨-, -, -, -, -, -, -, -, -, e50, -⟩ := idx_facts t
  funext y
  rw [View.read_apply]
  refine congrArg A (funext fun a => Fin.ext ?_)
  match a with
  | ⟨0, _⟩ => show win0_5.index t (0 : Fin 1) * 128 + 1 * (y 0).val = (y 0).val; rw [e50]; omega

/-- The six input blocks at point `t`, over the arrays the region finds. -/
theorem xblk_apply (c : Dev nD) (t : Fin cfg0.N) (p : Fin 5000) (cc : Fin 128) (n : Fin 100000) (hn : n.val = t.val * 5000 + p.val) :
    (iblk m c 0 t : Vec Ideal S5000x128 .f32) (ix2 p cc) = Xarr m c (ix2 n cc) := rows0 t (Xarr m c) p cc n hn
theorem ablk_apply (c : Dev nD) (t : Fin cfg0.N) (p : Fin 5000) (cc : Fin 128) (n : Fin 100000) (hn : n.val = t.val * 5000 + p.val) :
    (iblk m c 1 t : Vec Ideal S5000x128 .f32) (ix2 p cc) = Aarr m c (ix2 n cc) := rows1 t (Aarr m c) p cc n hn
theorem w1blk (c : Dev nD) (t : Fin cfg0.N) : (iblk m c 2 t : Vec Ideal S128x128 .f32) = W1arr m c := whole2 t (W1arr m c)
theorem b1blk (c : Dev nD) (t : Fin cfg0.N) : (iblk m c 3 t : Vec Ideal S128 .f32) = B1arr m c := whole3 t (B1arr m c)
theorem w2blk (c : Dev nD) (t : Fin cfg0.N) : (iblk m c 4 t : Vec Ideal S128x128 .f32) = W2arr m c := whole4 t (W2arr m c)
theorem b2blk (c : Dev nD) (t : Fin cfg0.N) : (iblk m c 5 t : Vec Ideal S128 .f32) = B2arr m c := whole5 t (B2arr m c)

/-! ### What a point writes back -/

/-- The body's stored block at point `t`, entry by entry: `rowOut` of rows `5000 t + p` of the two arrays. -/
theorem stored_at (c : Dev nD) (t : Fin cfg0.N) (p : Fin 5000) (q : Fin 128) (n : Fin 100000) (hn : n.val = t.val * 5000 + p.val) :
    k0_pay1 (F := Ideal) (iblk m c 0 t) (iblk m c 1 t) (iblk m c 2 t) (iblk m c 3 t) (iblk m c 4 t) (iblk m c 5 t) (ix2 p q)
      = result m c (ix2 n q) := by
  refine (PayRow.pay_row (iblk m c 0 t) (iblk m c 1 t) (iblk m c 2 t) (iblk m c 3 t) (iblk m c 4 t) (iblk m c 5 t) p q).trans ?_
  rw [w1blk m c t, b1blk m c t, w2blk m c t, b2blk m c t]
  exact GinSpec.rowOut_congr (fun cc => xblk_apply m c t p cc n hn) (fun cc => ablk_apply m c t p cc n hn) _ _ _ _ rfl

/-- WHAT POINT `t` WRITES BACK is block `t` of `result`. -/
theorem flushed_eq (c : Dev nD) (t : Fin cfg0.N) :
    (dats m 0 c).flushed 6 t = ((cfg0.win 6).blk t).view.read (Elt Ideal) (result m c) := by
  rw [flushed6]
  unfold out0_6
  rw [View.canon_unit_zero hz]
  simp only [View.ld_unit_zero (S := S5000x128) hz, View.ld_unit_zero (S := S128x128) hz, View.ld_unit_zero (S := S128) hz1]
  obtain ⟨-, -, -, -, -, -, -, -, -, -, e60, e61⟩ := idx_facts t
  funext j
  have ht : t.val < 20 := lt_of_lt_of_eq t.isLt (show cfg0.N = 20 from N_0)
  have hj0 : (j 0).val < 5000 := (j 0).isLt
  have hj1 : (j 1).val < 128 := (j 1).isLt
  show k0_pay1 (F := Ideal) (iblk m c 0 t) (iblk m c 1 t) (iblk m c 2 t) (iblk m c 3 t) (iblk m c 4 t) (iblk m c 5 t) j
      = result m c (((cfg0.win 6).blk t).view.emb j)
  have hj : j = ix2 (⟨(j 0).val, hj0⟩ : Fin 5000) (⟨(j 1).val, hj1⟩ : Fin 128) := funext fun a => by
    match a with
    | ⟨0, _⟩ => rfl
    | ⟨1, _⟩ => rfl
  have he : ((cfg0.win 6).blk t).view.emb j
      = ix2 (⟨t.val * 5000 + (j 0).val, by omega⟩ : Fin 100000) (⟨(j 1).val, hj1⟩ : Fin 128) := funext fun a => Fin.ext (by
    match a with
    | ⟨0, _⟩ => show win0_6.index t (0 : Fin 2) * 5000 + 1 * (j 0).val = t.val * 5000 + (j 0).val; rw [e60]; omega
    | ⟨1, _⟩ => show win0_6.index t (1 : Fin 2) * 128 + 1 * (j 1).val = (j 1).val; rw [e61]; omega)
  rw [he]
  conv_lhs => rw [hj]
  exact stored_at m c t _ _ _ rfl

/-! ### The cover, and the array after the run -/

/-- An index of the result array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v10).slice (win0_6.rect t)).set ↔ _
  rw [View.set_slice_whole, Rect.mem_set_unit]
  exact Iff.rfl

/-- Every index of the result array lies in the block of the point its row falls in. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨-, -, -, -, -, -, -, -, -, -, e60, e61⟩ := idx_facts t
  have e60' : win0_6.index t (0 : Fin 2) = (i 0).val / 5000 := e60
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE ARRAY after the run is `result`. -/
theorem final (c : Dev nD) : (dats m 0 c).arrAt 6 cfg0.N = result m c :=
  (dats m 0 c).arrAt_eq_of_cover 6 (result m c) (fun t _ => flushed_eq m c t) cover

/-- `result` over the launch contents: the weights, biases and features are as launched, the aggregate the host term. -/
theorem result_launch (c : Dev nD) :
    result m c = GinSpec.out (m ((c : Thread nD τ).loc main_arg0))
      (Agg.agg (m ((c : Thread nD τ).loc main_arg0)) (m ((c : Thread nD τ).loc main_arg5)) (m ((c : Thread nD τ).loc main_arg6)))
      (m ((c : Thread nD τ).loc main_arg1)) (m ((c : Thread nD τ).loc main_arg2)) (m ((c : Thread nD τ).loc main_arg3)) (m ((c : Thread nD τ).loc main_arg4)) := by
  show GinSpec.out (V m c main_arg0) (V m c main_v9) (V m c main_arg1) (V m c main_arg2) (V m c main_arg3) (V m c main_arg4) = _
  rw [V_main_arg0, V_main_arg1, V_main_arg2, V_main_arg3, V_main_arg4, Agg.V_agg]

/-- The kernel's run, read: the result array at `GinSpec.out` of the launch contents, the arguments unchanged. -/
theorem run : θ_run defs (onTc (τ := τ) (main (F := Ideal))) ⟨m, fun _ => 0, ρ⟩ fun r => ∀ c : Dev nD,
      r.2.mem ((c : Thread nD τ).loc main_v10) = GinSpec.out (m ((c : Thread nD τ).loc main_arg0))
        (Agg.agg (m ((c : Thread nD τ).loc main_arg0)) (m ((c : Thread nD τ).loc main_arg5)) (m ((c : Thread nD τ).loc main_arg6)))
        (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (result_launch m c)), (h c).2⟩)
    (Value.run_blocks m ρ)

end Cert.KernelIdeal.Whole

end
-- ==== Proof.lean ====
/-
  A graph-isomorphism layer: `out = relu((1 · X + agg) · W1 + b1) · W2 + b2` over f32[100000, 128] node features, where
  `agg` gathers the feature rows named by one edge list and scatter-adds them by the other.

  Both programs compute `agg` on the host with the same operations. The kernel then runs the two affine maps and the
  rectifier on 5000-row blocks over a grid of 20 points, with the weights and biases resident; the reference runs them on
  the whole array. Over the extended reals the changes of float format are the identity and a matrix product into a zero
  accumulator is a plain sum over the contracted axis, so both results are, entry by entry, `GinSpec.out`: node `n`'s row
  is a function of row `n` of `X` and of `agg` only, and the 20 row blocks tile the 100000 rows. No algebraic law beyond
  reading the sums is needed, so the finiteness of the inputs is not used.

  The three frames are the generated ones (the reference's is its generated run with the result dropped); the idealized
  kernel is the kernel's own text read over the extended reals, so the idealization claim has no conjunct.
-/
import proofs.«179949_j69123203662130_1_alg».proof.Defs
import proofs.«179949_j69123203662130_1_alg».proof.Proof.Gen.Kernel
import proofs.«179949_j69123203662130_1_alg».proof.Proof.Gen.Kernel.Skeleton
import proofs.«179949_j69123203662130_1_alg».proof.Proof.Gen.Kernel.Launch
import proofs.«179949_j69123203662130_1_alg».proof.Proof.Gen.Kernel.Points
import proofs.«179949_j69123203662130_1_alg».proof.Proof.Gen.Kernel.Frame
import proofs.«179949_j69123203662130_1_alg».proof.Proof.Gen.KernelIdeal
import proofs.«179949_j69123203662130_1_alg».proof.Proof.Gen.KernelIdeal.Skeleton
import proofs.«179949_j69123203662130_1_alg».proof.Proof.Gen.KernelIdeal.Launch
import proofs.«179949_j69123203662130_1_alg».proof.Proof.Gen.KernelIdeal.Points
import proofs.«179949_j69123203662130_1_alg».proof.Proof.Gen.KernelIdeal.Frame
import proofs.«179949_j69123203662130_1_alg».proof.Proof.Gen.ReferenceIdeal
import proofs.«179949_j69123203662130_1_alg».proof.Proof.Gen.Pre_finite_inputs
import proofs.«179949_j69123203662130_1_alg».proof.Proof.Gen.KernelIdeal.Value
import proofs.«179949_j69123203662130_1_alg».proof.Proof.Gen.ReferenceIdeal.Run
import proofs.«179949_j69123203662130_1_alg».proof.Proof.Gen.ReferenceIdeal.Read
import proofs.«179949_j69123203662130_1_alg».proof.Proof.RefSpec
import proofs.«179949_j69123203662130_1_alg».proof.Proof.Whole
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the seven arguments, the kernel's result array ends at `GinSpec.out` of the launch
    contents (the blocks put together) and the reference's at its composed term, which is the same `GinSpec.out`: the
    aggregate on both sides is one term of the features and the edge lists. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v21_eq, Cert.ReferenceIdeal.RefSpec.result_eq, h0, h1, h2, h3, h4, h5, h6,
    ← Cert.KernelIdeal.Agg.agg_eq_ref]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
